-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x50 : Shape := ⟨2, ![1600000, 50]⟩
abbrev S50x128 : Shape := ⟨2, ![50, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x50 : S_.BroadcastsInDim S1600000x50 (![] : Fin 0 → Fin S1600000x50.rank)
  reducesTo_S1600000x50_S_d0_1 : S1600000x50.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x1600000 32) (main_arg2 : FVec F S1600000x50 .f32) (main_arg3 : FVec F S50x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x50 .f32 := Host.absf main_arg2
  let main_cst_0 : FVec F S_ .f32 := constant S_ .f32 0x7F800000#32
  let main_v5 : FVec F S1600000x50 .f32 := broadcastInDim S1600000x50 ![] bcast_S_S1600000x50 main_cst_0
  let main_v6 : IVec S1600000x50 1 := cmpf .olt main_v4 main_v5
  let main_c_1 : IVec S_ 1 := constantI S_ 1 1#1
  let main_v7 : IVec S_ 1 := (fun x v => Host.reduce IntOp.andi x v reducesTo_S1600000x50_S_d0_1 h_S_) main_v6 main_c_1
  let main_v8 : IVec S_ 1 := andi main_v3 main_v7
  let main_v9 : FVec F S50x128 .f32 := Host.absf main_arg3
  let main_cst_2 : FVec F S_ .f32 := constant S_ .f32 0x7F800000#32
  let main_v10 : FVec F S50x128 .f32 := broadcastInDim S50x128 ![] bcast_S_S50x128 main_cst_2
  let main_v11 : IVec S50x128 1 := cmpf .olt main_v9 main_v10
  let main_c_3 : IVec S_ 1 := constantI S_ 1 1#1
  let main_v12 : IVec S_ 1 := (fun x v => Host.reduce IntOp.andi x v reducesTo_S50x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x1600000 : Shape := ⟨2, ![2, 1600000]⟩
abbrev S1600000x50 : Shape := ⟨2, ![1600000, 50]⟩
abbrev S50x128 : Shape := ⟨2, ![50, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S12800x128 : Shape := ⟨2, ![12800, 128]⟩
abbrev S12800x50 : Shape := ⟨2, ![12800, 50]⟩
abbrev S1x128 : Shape := ⟨2, ![1, 128]⟩
abbrev S5000x128 : Shape := ⟨2, ![5000, 128]⟩

abbrev nBuf : Space → Nat
  | .hbm => 33
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x50, .f32⟩
  | .hbm, ⟨3, _⟩ => ⟨S50x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .bf16⟩
  | .hbm, ⟨27, _⟩ => ⟨S1600000x128, .f32⟩
  | .hbm, ⟨28, _⟩ => ⟨S_, .f32⟩
  | .hbm, ⟨29, _⟩ => ⟨S50000x128, .f32⟩
  | .hbm, ⟨30, _⟩ => ⟨S1600000x1, .i32⟩
  | .hbm, ⟨31, _⟩ => ⟨S50000x128, .f32⟩
  | .hbm, ⟨32, _⟩ => ⟨S50000x128, .f32⟩
  | .local _ .vmem, ⟨0, _⟩ => ⟨S12800x128, .f32⟩
  | .local _ .vmem, ⟨1, _⟩ => ⟨S12800x128, .f32⟩
  | .local _ .vmem, ⟨2, _⟩ => ⟨S12800x50, .f32⟩
  | .local _ .vmem, ⟨3, _⟩ => ⟨S12800x50, .f32⟩
  | .local _ .vmem, ⟨4, _⟩ => ⟨S50x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S12800x128, .bf16⟩
  | .local _ .vmem, ⟨11, _⟩ => ⟨S12800x128, .bf16⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S12800x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S12800x50_S12800x50_0_0 : ∀ a, (![0, 0] : Fin 2 → Nat) a + S12800x50.size a ≤ S12800x50.size a
  h_S12800x50 : 0 < S12800x50.numel
  bitsLt_bf16_f32 : FTy.bits .bf16 < FTy.bits .f32
  inb_S50x128_S50x128_0_0 : ∀ a, (![0, 0] : Fin 2 → Nat) a + S50x128.size a ≤ S50x128.size a
  h_S50x128 : 0 < S50x128.numel
  inb_S128_S128_0 : ∀ a, (![0] : Fin 1 → Nat) a + S128.size a ≤ S128.size a
  h_S128 : 0 < S128.numel
  shapeCasts_S128_S1x128 : S128.ShapeCasts S1x128
  broadcasts_S1x128_S12800x128 : S1x128.Broadcasts S12800x128
  inb_S128x128_S128x128_0_0 : ∀ a, (![0, 0] : Fin 2 → Nat) a + S128x128.size a ≤ S128x128.size a
  h_S128x128 : 0 < S128x128.numel
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  packedbf16_S12800x128_S12800x128_0_0 : (Rect.unit (s := S12800x128) ![0, 0] S12800x128.size inb_S12800x128_S12800x128_0_0).PackedRows (EltTy.packing .bf16)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S1600000x1_S1600000x128_1_0_n_n_0_1_1128_wf : GatherDims.WF S50000x128 S1600000x1 S1600000x128 [1] [0] [] [0] [] 1 ![1, 128]
  dot_S12800x50_S50x128_S12800x128_1_0_0_1_n_n_wf : DotDims.WF S12800x50 S50x128 S12800x128 [1] [0] [0] [1] [] []
  dot_S12800x128_S128x128_S12800x128_1_0_0_1_n_n_wf : DotDims.WF S12800x128 S128x128 S12800x128 [1] [0] [0] [1] [] []
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x128.size a ≤ S1600000x128.size a
  hwx0_0 : ∀ i : grid0.Coords, EltTy.bits .f32 = 32 ∨ (Rect.block (s := S1600000x128) S12800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x50.size a ≤ S1600000x50.size a
  hwx0_1 : ∀ i : grid0.Coords, EltTy.bits .f32 = 32 ∨ (Rect.block (s := S1600000x50) S12800x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x128.size a ≤ S50x128.size a
  hwx0_2 : ∀ i : grid0.Coords, EltTy.bits .f32 = 32 ∨ (Rect.block (s := S50x128) S50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S12800x128.size a ≤ S1600000x128.size a
  hwx0_8 : ∀ i : grid0.Coords, EltTy.bits .bf16 = 32 ∨ (Rect.block (s := S1600000x128) S12800x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S12800x50_S50x128_S12800x128_1_0_0_1_n_n : DotDims S12800x50 S50x128 S12800x128 where
  lhsContracting := [1]
  rhsContracting := [0]
  lhsNonContracting := [0]
  rhsNonContracting := [1]
  lhsBatch := []
  rhsBatch := []
  wf := dot_S12800x50_S50x128_S12800x128_1_0_0_1_n_n_wf
def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S12800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12800x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S50x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S12800x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x50 : Shape := ⟨2, ![1600000, 50]⟩
abbrev S50x128 : Shape := ⟨2, ![50, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1600000x128 : Shape := ⟨2, ![1600000, 128]⟩
abbrev S1x128 : Shape := ⟨2, ![1, 128]⟩
abbrev S_ : Shape := ⟨0, ![]⟩
abbrev S1600000x1 : Shape := ⟨2, ![1600000, 1]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x50, .f32⟩
  | .hbm, ⟨3, _⟩ => ⟨S50x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S1600000x128, .f32⟩
  | .hbm, ⟨18, _⟩ => ⟨S1x128, .f32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S1600000x128, .f32⟩
  | .hbm, ⟨28, _⟩ => ⟨S1600000x128, .f32⟩
  | .hbm, ⟨29, _⟩ => ⟨S1600000x128, .f32⟩
  | .hbm, ⟨30, _⟩ => ⟨S1600000x128, .f32⟩
  | .hbm, ⟨31, _⟩ => ⟨S1x128, .f32⟩
  | .hbm, ⟨32, _⟩ => ⟨S1600000x128, .f32⟩
  | .hbm, ⟨33, _⟩ => ⟨S1600000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x128, .f32⟩
  | .hbm, ⟨44, _⟩ => ⟨S1x128, .f32⟩
  | .hbm, ⟨45, _⟩ => ⟨S1600000x128, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S50000x128, .f32⟩
  | .hbm, ⟨50, _⟩ => ⟨S1600000x1, .i32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S1600000x50_S50x128_S1600000x128_1_0_0_1_n_n_wf : DotDims.WF S1600000x50 S50x128 S1600000x128 [1] [0] [0] [1] [] []
  dot_S1600000x128_S128x128_S1600000x128_1_0_0_1_n_n_wf : DotDims.WF S1600000x128 S128x128 S1600000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def dot_S1600000x50_S50x128_S1600000x128_1_0_0_1_n_n : DotDims S1600000x50 S50x128 S1600000x128 where
  lhsContracting := [1]
  rhsContracting := [0]
  lhsNonContracting := [0]
  rhsNonContracting := [1]
  lhsBatch := []
  rhsBatch := []
  wf := dot_S1600000x50_S50x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The message-passing layer as functions on the extended reals, index by index.

  One dense layer at row `r`, column `j` is `∑ₖ a(r,k)·w(k,j) + b(j)`; the gate is `silu h = h·σ(h)` with
  `σ(h) = 1/(1 + e^(-h))`; a two-layer perceptron is a dense layer, the gate, and a second dense layer.
  The message of edge `e` in channel `j` is the dense image of the gathered source row times the perceptron of the
  edge's radial features; a node's update is its own row plus the perceptron of its aggregated messages.
  Every entry of a row of the result depends on that ROW of the row-indexed operand only, which is what lets a
  block of rows be computed from the block alone (`dense_congr`, `mlp_congr`).
-/
import Idealize.ShloMosaic.PureOps.Ideal
import Idealize.ShloMosaic.Lib.ValueIdx

noncomputable section

namespace Cert.Spec

open Idealize.ShloMosaic Idealize.ShloMosaic.ValueIdx

/-- The gate `h ↦ h · σ(h)`. -/
def silu (h : EReal) : EReal := h * Ideal.logistic h

/-- A dense layer read at row `r`, column `j`: `∑ₖ a(r,k)·w(k,j) + b(j)`. -/
def dense {M K N : Nat} (a : (⟨2, ![M, K]⟩ : Shape).Idx → EReal) (w : (⟨2, ![K, N]⟩ : Shape).Idx → EReal)
    (b : (⟨1, ![N]⟩ : Shape).Idx → EReal) (r : Fin M) (j : Fin N) : EReal :=
  ∑ k : Fin K, a (ix2 r k) * w (ix2 k j) + b (ix1 j)

/-- Dense, gate, dense: read at row `r`, column `j`. -/
def mlp {M K H N : Nat} (a : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (r : Fin M) (j : Fin N) : EReal :=
  ∑ k : Fin H, silu (dense a w1 b1 r k) * w2 (ix2 k j) + b2 (ix1 j)

/-- The messages: for edge `e` and channel `j`, `(xs(e,·)·dW + db)(j) · mlp(attr(e,·))(j)`. -/
def edgeMsg {E : Nat} (xs : (⟨2, ![E, 128]⟩ : Shape).Idx → EReal) (attr : (⟨2, ![E, 50]⟩ : Shape).Idx → EReal)
    (fW1 : (⟨2, ![50, 128]⟩ : Shape).Idx → EReal) (fb1 : (⟨1, ![128]⟩ : Shape).Idx → EReal)
    (fW2 : (⟨2, ![128, 128]⟩ : Shape).Idx → EReal) (fb2 : (⟨1, ![128]⟩ : Shape).Idx → EReal)
    (dW : (⟨2, ![128, 128]⟩ : Shape).Idx → EReal) (db : (⟨1, ![128]⟩ : Shape).Idx → EReal) :
    (⟨2, ![E, 128]⟩ : Shape).Idx → EReal :=
  fun i => dense xs dW db (i 0) (i 1) * mlp attr fW1 fb1 fW2 fb2 (i 0) (i 1)

/-- The update: node `n`, channel `j`: `x(n,j) + mlp(agg(n,·))(j)`. -/
def nodeUpd {Nn : Nat} (agg x : (⟨2, ![Nn, 128]⟩ : Shape).Idx → EReal)
    (uW1 : (⟨2, ![128, 128]⟩ : Shape).Idx → EReal) (ub1 : (⟨1, ![128]⟩ : Shape).Idx → EReal)
    (uW2 : (⟨2, ![128, 128]⟩ : Shape).Idx → EReal) (ub2 : (⟨1, ![128]⟩ : Shape).Idx → EReal) :
    (⟨2, ![Nn, 128]⟩ : Shape).Idx → EReal :=
  fun i => x i + mlp agg uW1 ub1 uW2 ub2 (i 0) (i 1)

/-- A dense layer's entry depends on one row of `a`: two row-indexed operands of different heights that agree on
    the rows in question give the same entry. -/
theorem dense_congr {M M' K N : Nat} (a : (⟨2, ![M, K]⟩ : Shape).Idx → EReal) (a' : (⟨2, ![M', K]⟩ : Shape).Idx → EReal)
    (w : (⟨2, ![K, N]⟩ : Shape).Idx → EReal) (b : (⟨1, ![N]⟩ : Shape).Idx → EReal) (r : Fin M) (r' : Fin M') (j : Fin N)
    (h : ∀ k : Fin K, a (ix2 r k) = a' (ix2 r' k)) : dense a w b r j = dense a' w b r' j := by
  unfold dense
  exact congrArg (· + b (ix1 j)) (Finset.sum_congr rfl fun k _ => by rw [h k])

/-- The same for the perceptron. -/
theorem mlp_congr {M M' K H N : Nat} (a : (⟨2, ![M, K]⟩ : Shape).Idx → EReal) (a' : (⟨2, ![M', K]⟩ : Shape).Idx → EReal)
    (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (r : Fin M) (r' : Fin M') (j : Fin N)
    (h : ∀ k : Fin K, a (ix2 r k) = a' (ix2 r' k)) : mlp a w1 b1 w2 b2 r j = mlp a' w1 b1 w2 b2 r' j := by
  unfold mlp
  exact congrArg (· + b2 (ix1 j)) (Finset.sum_congr rfl fun k _ => by rw [dense_congr a a' w1 b1 r r' k h])

/-- A message depends on its edge's row of the gathered sources and of the radial features only: blocks of rows of
    different heights that agree on the row in question give the same message. -/
theorem edgeMsg_congr {E E' : Nat} (xs : (⟨2, ![E, 128]⟩ : Shape).Idx → EReal) (xs' : (⟨2, ![E', 128]⟩ : Shape).Idx → EReal)
    (attr : (⟨2, ![E, 50]⟩ : Shape).Idx → EReal) (attr' : (⟨2, ![E', 50]⟩ : Shape).Idx → EReal)
    (fW1 : (⟨2, ![50, 128]⟩ : Shape).Idx → EReal) (fb1 : (⟨1, ![128]⟩ : Shape).Idx → EReal)
    (fW2 : (⟨2, ![128, 128]⟩ : Shape).Idx → EReal) (fb2 : (⟨1, ![128]⟩ : Shape).Idx → EReal)
    (dW : (⟨2, ![128, 128]⟩ : Shape).Idx → EReal) (db : (⟨1, ![128]⟩ : Shape).Idx → EReal)
    (r : Fin E) (r' : Fin E') (j : Fin 128)
    (hx : ∀ k : Fin 128, xs (ix2 r k) = xs' (ix2 r' k)) (ha : ∀ k : Fin 50, attr (ix2 r k) = attr' (ix2 r' k)) :
    edgeMsg xs attr fW1 fb1 fW2 fb2 dW db (ix2 r j) = edgeMsg xs' attr' fW1 fb1 fW2 fb2 dW db (ix2 r' j) := by
  show dense xs dW db r j * mlp attr fW1 fb1 fW2 fb2 r j = dense xs' dW db r' j * mlp attr' fW1 fb1 fW2 fb2 r' j
  rw [dense_congr xs xs' dW db r r' j hx, mlp_congr attr attr' fW1 fb1 fW2 fb2 r r' j ha]

/-- The same for a node's update. -/
theorem nodeUpd_congr {Nn Nn' : Nat} (agg x : (⟨2, ![Nn, 128]⟩ : Shape).Idx → EReal) (agg' x' : (⟨2, ![Nn', 128]⟩ : Shape).Idx → EReal)
    (uW1 : (⟨2, ![128, 128]⟩ : Shape).Idx → EReal) (ub1 : (⟨1, ![128]⟩ : Shape).Idx → EReal)
    (uW2 : (⟨2, ![128, 128]⟩ : Shape).Idx → EReal) (ub2 : (⟨1, ![128]⟩ : Shape).Idx → EReal)
    (r : Fin Nn) (r' : Fin Nn') (j : Fin 128)
    (hg : ∀ k : Fin 128, agg (ix2 r k) = agg' (ix2 r' k)) (hx : x (ix2 r j) = x' (ix2 r' j)) :
    nodeUpd agg x uW1 ub1 uW2 ub2 (ix2 r j) = nodeUpd agg' x' uW1 ub1 uW2 ub2 (ix2 r' j) := by
  show x (ix2 r j) + mlp agg uW1 ub1 uW2 ub2 r j = x' (ix2 r' j) + mlp agg' uW1 ub1 uW2 ub2 r' j
  rw [hx, mlp_congr agg agg' uW1 ub1 uW2 ub2 r r' j hg]

end Cert.Spec

end
-- ==== Proof.KernelPayload.lean ====
/-
  The two bodies' arithmetic, at the ideal values, is the message-passing layer on the loaded block.

  At the extended reals a change of float format is the identity, so the narrowings to bf16 in front of each product
  and on the edge body's result drop out. A product of an `M×K` by a `K×N` block into the zero accumulator, read at
  `(p, q)`, is `∑ₖ l(p,k)·r(k,q)`: the contraction has one axis, so its index set is `Fin K`, the left operand reads
  the output's row and the contraction coordinate, the right operand the contraction coordinate and the output's
  column. A bias `[N]` viewed `[1,N]` and broadcast over the rows reads `b(q)` at `(p, q)`. With these, the edge body is
  `(xs·dW + db)(p,q) · (silu(attr·fW1 + fb1)·fW2 + fb2)(p,q)` and the update body `x(p,q) + (silu(agg·uW1 + ub1)·uW2 + ub2)(p,q)`,
  entry by entry the specification's `edgeMsg` and `nodeUpd`.
-/
import proofs.«427932_j76012331204796_3_alg».proof.Proof.Gen.KernelIdeal.Skeleton
import proofs.«427932_j76012331204796_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- A product of an `M×K` by a `K×N` block into the zero accumulator, read at row `p`, column `q`: the plain sum
    `∑ₖ l(p,k)·r(k,q)`. The four hypotheses say which coordinate of the output index or of the one-axis contraction
    index each operand axis reads. -/
theorem matmul_zero_ix2 {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (q : Fin N) :
    matmul D none l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-! The three products of the two bodies: which coordinate each operand axis reads, at the literal axes. -/

theorem dotA_lhs0 (i : S12800x128.Idx) (q : dot_S12800x50_S50x128_S12800x128_1_0_0_1_n_n.contr.Idx) : (dot_S12800x50_S50x128_S12800x128_1_0_0_1_n_n.lhsIdx i q 0).val = (i 0).val := by
  unfold DotDims.lhsIdx
  rw [dif_neg (show ¬(0 : Fin S12800x50.rank) ∈ dot_S12800x50_S50x128_S12800x128_1_0_0_1_n_n.lhsBatch by decide),
    dif_pos (show (0 : Fin S12800x50.rank) ∈ dot_S12800x50_S50x128_S12800x128_1_0_0_1_n_n.lhsNonContracting by decide)]
  rfl
theorem dotA_lhs1 (i : S12800x128.Idx) (q : dot_S12800x50_S50x128_S12800x128_1_0_0_1_n_n.contr.Idx) : (dot_S12800x50_S50x128_S12800x128_1_0_0_1_n_n.lhsIdx i q 1).val = (q ⟨0, by decide⟩).val :=
  dot_S12800x50_S50x128_S12800x128_1_0_0_1_n_n.lhsIdx_val_of_single rfl i q
theorem dotA_rhs0 (i : S12800x128.Idx) (q : dot_S12800x50_S50x128_S12800x128_1_0_0_1_n_n.contr.Idx) : (dot_S12800x50_S50x128_S12800x128_1_0_0_1_n_n.rhsIdx i q 0).val = (q ⟨0, by decide⟩).val :=
  dot_S12800x50_S50x128_S12800x128_1_0_0_1_n_n.rhsIdx_val_of_single rfl i q
theorem dotA_rhs1 (i : S12800x128.Idx) (q : dot_S12800x50_S50x128_S12800x128_1_0_0_1_n_n.contr.Idx) : (dot_S12800x50_S50x128_S12800x128_1_0_0_1_n_n.rhsIdx i q 1).val = (i 1).val := by
  unfold DotDims.rhsIdx
  rw [dif_neg (show ¬(1 : Fin S50x128.rank) ∈ dot_S12800x50_S50x128_S12800x128_1_0_0_1_n_n.rhsBatch by decide),
    dif_pos (show (1 : Fin S50x128.rank) ∈ dot_S12800x50_S50x128_S12800x128_1_0_0_1_n_n.rhsNonContracting by decide)]
  rfl

theorem dotB_lhs0 (i : S12800x128.Idx) (q : dot_S12800x128_S128x128_S12800x128_1_0_0_1_n_n.contr.Idx) : (dot_S12800x128_S128x128_S12800x128_1_0_0_1_n_n.lhsIdx i q 0).val = (i 0).val := by
  unfold DotDims.lhsIdx
  rw [dif_neg (show ¬(0 : Fin S12800x128.rank) ∈ dot_S12800x128_S128x128_S12800x128_1_0_0_1_n_n.lhsBatch by decide),
    dif_pos (show (0 : Fin S12800x128.rank) ∈ dot_S12800x128_S128x128_S12800x128_1_0_0_1_n_n.lhsNonContracting by decide)]
  rfl
theorem dotB_lhs1 (i : S12800x128.Idx) (q : dot_S12800x128_S128x128_S12800x128_1_0_0_1_n_n.contr.Idx) : (dot_S12800x128_S128x128_S12800x128_1_0_0_1_n_n.lhsIdx i q 1).val = (q ⟨0, by decide⟩).val :=
  dot_S12800x128_S128x128_S12800x128_1_0_0_1_n_n.lhsIdx_val_of_single rfl i q
theorem dotB_rhs0 (i : S12800x128.Idx) (q : dot_S12800x128_S128x128_S12800x128_1_0_0_1_n_n.contr.Idx) : (dot_S12800x128_S128x128_S12800x128_1_0_0_1_n_n.rhsIdx i q 0).val = (q ⟨0, by decide⟩).val :=
  dot_S12800x128_S128x128_S12800x128_1_0_0_1_n_n.rhsIdx_val_of_single rfl i q
theorem dotB_rhs1 (i : S12800x128.Idx) (q : dot_S12800x128_S128x128_S12800x128_1_0_0_1_n_n.contr.Idx) : (dot_S12800x128_S128x128_S12800x128_1_0_0_1_n_n.rhsIdx i q 1).val = (i 1).val := by
  unfold DotDims.rhsIdx
  rw [dif_neg (show ¬(1 : Fin S128x128.rank) ∈ dot_S12800x128_S128x128_S12800x128_1_0_0_1_n_n.rhsBatch by decide),
    dif_pos (show (1 : Fin S128x128.rank) ∈ dot_S12800x128_S128x128_S12800x128_1_0_0_1_n_n.rhsNonContracting by decide)]
  rfl

theorem dotC_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dotC_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dotC_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dotC_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The edge body's first product, `[12800,50]·[50,128]`. -/
theorem matmulA_apply {φ₁ φ₂ : FTy} (l : FVec Ideal S12800x50 φ₁) (r : FVec Ideal S50x128 φ₂) (p : Fin 12800) (q : Fin 128) :
    matmul dot_S12800x50_S50x128_S12800x128_1_0_0_1_n_n none l r (constant S12800x128 .f32 0x00000000#32) (ix2 p q) = ∑ k : Fin 50, l (ix2 p k) * r (ix2 k q) :=
  matmul_zero_ix2 dot_S12800x50_S50x128_S12800x128_1_0_0_1_n_n rfl rfl dotA_lhs0 dotA_lhs1 dotA_rhs0 dotA_rhs1 l r p q

/-- The edge body's two `[12800,128]·[128,128]` products. -/
theorem matmulB_apply {φ₁ φ₂ : FTy} (l : FVec Ideal S12800x128 φ₁) (r : FVec Ideal S128x128 φ₂) (p : Fin 12800) (q : Fin 128) :
    matmul dot_S12800x128_S128x128_S12800x128_1_0_0_1_n_n none l r (constant S12800x128 .f32 0x00000000#32) (ix2 p q) = ∑ k : Fin 128, l (ix2 p k) * r (ix2 k q) :=
  matmul_zero_ix2 dot_S12800x128_S128x128_S12800x128_1_0_0_1_n_n rfl rfl dotB_lhs0 dotB_lhs1 dotB_rhs0 dotB_rhs1 l r p q

/-- The update body's two `[5000,128]·[128,128]` products. -/
theorem matmulC_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q) = ∑ k : Fin 128, l (ix2 p k) * r (ix2 k q) :=
  matmul_zero_ix2 dot_S5000x128_S128x128_S5000x128_1_0_0_1_n_n rfl rfl dotC_lhs0 dotC_lhs1 dotC_rhs0 dotC_rhs1 l r p q

/-- A bias `[N]` viewed `[1,N]` and broadcast over `M` rows reads, at `(p, q)`, the bias at `q`. -/
theorem bias_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  rw [broadcastTo_1b_ab_apply, shapeCast_a_1a_apply]

/-- The logistic of a block, read at an index, is the logistic of the element. -/
theorem logistic_apply {s : Shape} {φ : FTy} (a : FVec Ideal s φ) (i : s.Idx) : logistic a i = Ideal.logistic (a i) := rfl

theorem edge_eq (v0 : Vec Ideal S12800x50 .f32) (v2 : Vec Ideal S50x128 .f32) (v5 : Vec Ideal S128 .f32)
    (v12 : Vec Ideal S128x128 .f32) (v15 : Vec Ideal S128 .f32) (v19 : Vec Ideal S12800x128 .f32)
    (v22 : Vec Ideal S128x128 .f32) (v25 : Vec Ideal S128 .f32) :
    Cert.KernelIdeal.Gen.k0_pay1 (F := Ideal) v0 v2 v5 v12 v15 v19 v22 v25
      = Cert.Spec.edgeMsg (E := 12800) v19 v0 v2 v5 v12 v15 v22 v25 := by
  funext i
  obtain ⟨p, q, rfl⟩ : ∃ p q, i = ix2 p q := ⟨i 0, i 1, eq_ix2 i⟩
  unfold Cert.KernelIdeal.Gen.k0_pay1 Cert.Spec.edgeMsg Cert.Spec.mlp Cert.Spec.dense Cert.Spec.silu
  simp only [truncf_apply, mulf_apply, addf_apply, logistic_apply, matmulA_apply, matmulB_apply, bias_apply, shapeCast_self]

theorem update_eq (v0 : Vec Ideal S5000x128 .f32) (v3 : Vec Ideal S128x128 .f32) (v6 : Vec Ideal S128 .f32)
    (v13 : Vec Ideal S128x128 .f32) (v16 : Vec Ideal S128 .f32) (v20 : Vec Ideal S5000x128 .f32) :
    Cert.KernelIdeal.Gen.k1_pay1 (F := Ideal) v0 v3 v6 v13 v16 v20
      = Cert.Spec.nodeUpd (Nn := 5000) v0 v20 v3 v6 v13 v16 := by
  funext i
  obtain ⟨p, q, rfl⟩ : ∃ p q, i = ix2 p q := ⟨i 0, i 1, eq_ix2 i⟩
  unfold Cert.KernelIdeal.Gen.k1_pay1 Cert.Spec.nodeUpd Cert.Spec.mlp Cert.Spec.dense Cert.Spec.silu
  simp only [truncf_apply, mulf_apply, addf_apply, logistic_apply, matmulC_apply, bias_apply, shapeCast_self]

end Cert.KernelIdeal.Payload

end
-- ==== Proof.EdgeRegion.lean ====
/-
  The first region's array after its run. Grid point `t` of 125 computes edges `12800·t … 12800·t + 12799`: its
  blocks of the gathered source rows and of the radial features are those rows of the arrays, its weight and bias
  blocks are the whole arrays, and what it writes back is those rows of the message array `edgeMsg`. The 125 blocks
  tile the 1,600,000 rows, so the array ends holding `edgeMsg` of the arrays the region found. That the body's
  arithmetic on a block is `edgeMsg` of the block is taken as a hypothesis here (`hpay`) and proved beside this module.
-/
import proofs.«427932_j76012331204796_3_alg».proof.Proof.Gen.KernelIdeal.Frame
import proofs.«427932_j76012331204796_3_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
namespace Cert.KernelIdeal.EdgeRegion

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows move with the point, the others stay at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- The block of gathered source rows at point `t` is rows `12800·t + ·` of the array. -/
theorem blk_src (c : Dev nD) (t : Fin cfg0.N) (y : S12800x128.Idx) (k : S1600000x128.Idx)
    (hk0 : (k 0).val = t.val * 12800 + (y 0).val) (hk1 : (k 1).val = (y 1).val) :
    (iblk0 V c 0 t : Vec Ideal S12800x128 .f32) y = (V c main_v10 : S1600000x128.Idx → EReal) k := by
  obtain ⟨e0, e1, -⟩ := idx_facts t
  unfold iblk0
  rw [View.read_apply]
  show V c main_v10 _ = V c main_v10 _
  refine congrArg (V c main_v10) ?_
  funext a
  apply Fin.ext
  match a with
  | ⟨0, _⟩ => show win0_0.index t 0 * 12800 + 1 * (y 0).val = (k 0).val; rw [e0, hk0]; omega
  | ⟨1, _⟩ => show win0_0.index t 1 * 128 + 1 * (y 1).val = (k 1).val; rw [e1, hk1]; omega

/-- The block of radial features at point `t` is rows `12800·t + ·` of the array. -/
theorem blk_attr (c : Dev nD) (t : Fin cfg0.N) (y : S12800x50.Idx) (k : S1600000x50.Idx)
    (hk0 : (k 0).val = t.val * 12800 + (y 0).val) (hk1 : (k 1).val = (y 1).val) :
    (iblk0 V c 1 t : Vec Ideal S12800x50 .f32) y = (V c main_arg2 : S1600000x50.Idx → EReal) k := by
  obtain ⟨-, -, e0, e1, -⟩ := idx_facts t
  unfold iblk0
  rw [View.read_apply]
  show V c main_arg2 _ = V c main_arg2 _
  refine congrArg (V c main_arg2) ?_
  funext a
  apply Fin.ext
  match a with
  | ⟨0, _⟩ => show win0_1.index t 0 * 12800 + 1 * (y 0).val = (k 0).val; rw [e0, hk0]; omega
  | ⟨1, _⟩ => show win0_1.index t 1 * 50 + 1 * (y 1).val = (k 1).val; rw [e1, hk1]; omega

/-- A weight or bias window's one block is the whole array. -/
theorem blk_fW1 (c : Dev nD) (t : Fin cfg0.N) : (iblk0 V c 2 t : Vec Ideal S50x128 .f32) = (V c main_arg3 : S50x128.Idx → EReal) := by
  obtain ⟨-, -, -, -, e0, e1, -⟩ := idx_facts t
  funext y
  unfold iblk0
  rw [View.read_apply]
  show V c main_arg3 _ = V c main_arg3 _
  refine congrArg (V c main_arg3) ?_
  funext a
  apply Fin.ext
  match a with
  | ⟨0, _⟩ => show win0_2.index t 0 * 50 + 1 * (y 0).val = (y 0).val; rw [e0]; omega
  | ⟨1, _⟩ => show win0_2.index t 1 * 128 + 1 * (y 1).val = (y 1).val; rw [e1]; omega
theorem blk_fb1 (c : Dev nD) (t : Fin cfg0.N) : (iblk0 V c 3 t : Vec Ideal S128 .f32) = (V c main_arg4 : S128.Idx → EReal) := by
  obtain ⟨-, -, -, -, -, -, e0, -⟩ := idx_facts t
  funext y
  unfold iblk0
  rw [View.read_apply]
  show V c main_arg4 _ = V c main_arg4 _
  refine congrArg (V c main_arg4) ?_
  funext a
  apply Fin.ext
  match a with
  | ⟨0, _⟩ => show win0_3.index t 0 * 128 + 1 * (y 0).val = (y 0).val; rw [e0]; omega
theorem blk_fW2 (c : Dev nD) (t : Fin cfg0.N) : (iblk0 V c 4 t : Vec Ideal S128x128 .f32) = (V c main_arg5 : S128x128.Idx → EReal) := by
  obtain ⟨-, -, -, -, -, -, -, e0, e1, -⟩ := idx_facts t
  funext y
  unfold iblk0
  rw [View.read_apply]
  show V c main_arg5 _ = V c main_arg5 _
  refine congrArg (V c main_arg5) ?_
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega
theorem blk_fb2 (c : Dev nD) (t : Fin cfg0.N) : (iblk0 V c 5 t : Vec Ideal S128 .f32) = (V c main_arg6 : S128.Idx → EReal) := by
  obtain ⟨-, -, -, -, -, -, -, -, -, e0, -⟩ := idx_facts t
  funext y
  unfold iblk0
  rw [View.read_apply]
  show V c main_arg6 _ = V c main_arg6 _
  refine congrArg (V c main_arg6) ?_
  funext a
  apply Fin.ext
  match a with
  | ⟨0, _⟩ => show win0_5.index t 0 * 128 + 1 * (y 0).val = (y 0).val; rw [e0]; omega
theorem blk_dW (c : Dev nD) (t : Fin cfg0.N) : (iblk0 V c 6 t : Vec Ideal S128x128 .f32) = (V c main_arg7 : S128x128.Idx → EReal) := by
  obtain ⟨-, -, -, -, -, -, -, -, -, -, e0, e1, -⟩ := idx_facts t
  funext y
  unfold iblk0
  rw [View.read_apply]
  show V c main_arg7 _ = V c main_arg7 _
  refine congrArg (V c main_arg7) ?_
  funext a
  apply Fin.ext
  match a with
  | ⟨0, _⟩ => show win0_6.index t 0 * 128 + 1 * (y 0).val = (y 0).val; rw [e0]; omega
  | ⟨1, _⟩ => show win0_6.index t 1 * 128 + 1 * (y 1).val = (y 1).val; rw [e1]; omega
theorem blk_db (c : Dev nD) (t : Fin cfg0.N) : (iblk0 V c 7 t : Vec Ideal S128 .f32) = (V c main_arg8 : S128.Idx → EReal) := by
  obtain ⟨-, -, -, -, -, -, -, -, -, -, -, -, e0, -⟩ := idx_facts t
  funext y
  unfold iblk0
  rw [View.read_apply]
  show V c main_arg8 _ = V c main_arg8 _
  refine congrArg (V c main_arg8) ?_
  funext a
  apply Fin.ext
  match a with
  | ⟨0, _⟩ => show win0_7.index t 0 * 128 + 1 * (y 0).val = (y 0).val; rw [e0]; omega

/-- The message array of the arrays the region finds. -/
abbrev msgArr (c : Dev nD) : S1600000x128.Idx → EReal :=
  Cert.Spec.edgeMsg (E := 1600000) (V c main_v10) (V c main_arg2) (V c main_arg3) (V c main_arg4) (V c main_arg5) (V c main_arg6) (V c main_arg7) (V c main_arg8)

/-- What point `t` writes back is its block of rows of the message array. -/
theorem flushed_eq (hpay : ∀ (v0 : Vec Ideal S12800x50 .f32) (v2 : Vec Ideal S50x128 .f32) (v5 : Vec Ideal S128 .f32) (v12 : Vec Ideal S128x128 .f32) (v15 : Vec Ideal S128 .f32) (v19 : Vec Ideal S12800x128 .f32) (v22 : Vec Ideal S128x128 .f32) (v25 : Vec Ideal S128 .f32), k0_pay1 (F := Ideal) v0 v2 v5 v12 v15 v19 v22 v25 = Cert.Spec.edgeMsg (E := 12800) v19 v0 v2 v5 v12 v15 v22 v25)
    (c : Dev nD) (t : Fin cfg0.N) :
    (dat0 V c).flushed 8 t = ((cfg0.win 8).blk t).view.read (Elt Ideal) (msgArr V c) := by
  show (cfg0.win 8).cut (grid0.coords t) ((dat0 V c).after 8 t) = _
  rw [after0_8]
  unfold out0_8
  rw [View.canon_unit_zero hz]
  simp only [View.ld_unit_zero (S := S12800x128) hz, View.ld_unit_zero (S := S12800x50) hz, View.ld_unit_zero (S := S50x128) hz,
    View.ld_unit_zero (S := S128x128) hz, View.ld_unit_zero (S := S128) hz1]
  rw [hpay, blk_fW1 V c t, blk_fb1 V c t, blk_fW2 V c t, blk_fb2 V c t, blk_dW V c t, blk_db V c t]
  obtain ⟨-, -, -, -, -, -, -, -, -, -, -, -, -, e0, e1⟩ := idx_facts t
  funext j
  obtain ⟨p, q, rfl⟩ : ∃ (p : Fin 12800) (q : Fin 128), j = ix2 p q := ⟨j 0, j 1, eq_ix2 j⟩
  rw [View.read_apply]
  have ht : t.val < 125 := Nat.lt_of_lt_of_eq t.isLt N_0
  have hp : t.val * 12800 + p.val < 1600000 := by have := p.isLt; omega
  have he : ((cfg0.win 8).blk t).view.emb (ix2 p q) = (ix2 (⟨t.val * 12800 + p.val, hp⟩ : Fin 1600000) q : S1600000x128.Idx) := by
    funext a
    apply Fin.ext
    match a with
    | ⟨0, _⟩ => show win0_8.index t 0 * 12800 + 1 * p.val = t.val * 12800 + p.val; rw [e0]; omega
    | ⟨1, _⟩ => show win0_8.index t 1 * 128 + 1 * q.val = q.val; rw [e1]; omega
  rw [he]
  exact Cert.Spec.edgeMsg_congr _ _ _ _ _ _ _ _ _ _ p ⟨t.val * 12800 + p.val, hp⟩ q
    (fun k => blk_src V c t (ix2 p k) (ix2 ⟨t.val * 12800 + p.val, hp⟩ k) rfl rfl)
    (fun k => blk_attr V c t (ix2 p k) (ix2 ⟨t.val * 12800 + p.val, hp⟩ k) rfl rfl)

/-- Membership in a block of the output window, coordinate by coordinate. -/
theorem mem_blk (t : Fin cfg0.N) (i : S1600000x128.Idx) :
    i ∈ ((cfg0.win 8).blk t).view.set ↔ ∀ a : Fin 2, win0_8.index t a * S12800x128.size a ≤ (i a).val ∧ (i a).val < win0_8.index t a * S12800x128.size a + S12800x128.size a := by
  show i ∈ ((View.whole main_v11).slice (win0_8.rect t)).set ↔ _
  rw [View.set_slice_whole, Rect.mem_set_unit]
  exact Iff.rfl

/-- Every row lies in the block of the point `row / 12800`. -/
theorem cover (i : S1600000x128.Idx) : ∃ t : Fin cfg0.N, (cfg0.win 8).flush t = true ∧ i ∈ ((cfg0.win 8).blk t).view.set := by
  have hi0 : (i 0).val < 1600000 := (i 0).isLt
  have hi1 : (i 1).val < 128 := (i 1).isLt
  have hN : cfg0.N = 125 := N_0
  refine ⟨⟨(i 0).val / 12800, by rw [hN]; omega⟩, flush0_8 _, ?_⟩
  rw [mem_blk]
  obtain ⟨-, -, -, -, -, -, -, -, -, -, -, -, -, e0, e1⟩ := idx_facts ⟨(i 0).val / 12800, by rw [hN]; omega⟩
  intro a
  match a with
  | ⟨0, _⟩ => show win0_8.index _ 0 * 12800 ≤ (i 0).val ∧ (i 0).val < win0_8.index _ 0 * 12800 + 12800; rw [e0]; dsimp only; omega
  | ⟨1, _⟩ => show win0_8.index _ 1 * 128 ≤ (i 1).val ∧ (i 1).val < win0_8.index _ 1 * 128 + 128; rw [e1]; omega

/-- The message array after the region's run. -/
theorem final (hpay : ∀ (v0 : Vec Ideal S12800x50 .f32) (v2 : Vec Ideal S50x128 .f32) (v5 : Vec Ideal S128 .f32) (v12 : Vec Ideal S128x128 .f32) (v15 : Vec Ideal S128 .f32) (v19 : Vec Ideal S12800x128 .f32) (v22 : Vec Ideal S128x128 .f32) (v25 : Vec Ideal S128 .f32), k0_pay1 (F := Ideal) v0 v2 v5 v12 v15 v19 v22 v25 = Cert.Spec.edgeMsg (E := 12800) v19 v0 v2 v5 v12 v15 v22 v25)
    (c : Dev nD) : (dat0 V c).arrAt 8 cfg0.N = msgArr V c :=
  (dat0 V c).arrAt_eq_of_cover 8 (msgArr V c) (fun t _ => flushed_eq V hpay c t) cover

end Cert.KernelIdeal.EdgeRegion

end
-- ==== Proof.UpdateRegion.lean ====
/-
  The second region's array after its run. Grid point `t` of 10 computes nodes `5000·t … 5000·t + 4999`: its blocks
  of the aggregated messages and of the node features are those rows of the arrays, its weight and bias blocks are
  the whole arrays, and what it writes back is those rows of `nodeUpd`. The 10 blocks tile the 50,000 rows, so the
  result array ends holding `nodeUpd` of the arrays the region found. That the body's arithmetic on a block is
  `nodeUpd` of the block is taken as a hypothesis here (`hpay`) and proved beside this module.
-/
import proofs.«427932_j76012331204796_3_alg».proof.Proof.Gen.KernelIdeal.Frame
import proofs.«427932_j76012331204796_3_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
namespace Cert.KernelIdeal.UpdateRegion

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows move with the point, the others stay at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The block of aggregated messages at point `t` is rows `5000·t + ·` of the array. -/
theorem blk_agg (c : Dev nD) (t : Fin cfg1.N) (y : S5000x128.Idx) (k : S50000x128.Idx)
    (hk0 : (k 0).val = t.val * 5000 + (y 0).val) (hk1 : (k 1).val = (y 1).val) :
    (iblk1 V c 0 t : Vec Ideal S5000x128 .f32) y = (V c main_v15 : S50000x128.Idx → EReal) k := by
  obtain ⟨e0, e1, -⟩ := idx_facts t
  unfold iblk1
  rw [View.read_apply]
  show V c main_v15 _ = V c main_v15 _
  refine congrArg (V c main_v15) ?_
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- The block of node features at point `t` is rows `5000·t + ·` of the array. -/
theorem blk_x (c : Dev nD) (t : Fin cfg1.N) (y : S5000x128.Idx) (k : S50000x128.Idx)
    (hk0 : (k 0).val = t.val * 5000 + (y 0).val) (hk1 : (k 1).val = (y 1).val) :
    (iblk1 V c 1 t : Vec Ideal S5000x128 .f32) y = (V c main_arg0 : S50000x128.Idx → EReal) k := by
  obtain ⟨-, -, e0, e1, -⟩ := idx_facts t
  unfold iblk1
  rw [View.read_apply]
  show V c main_arg0 _ = V c main_arg0 _
  refine congrArg (V c main_arg0) ?_
  funext a
  apply Fin.ext
  match a with
  | ⟨0, _⟩ => show win1_1.index t 0 * 5000 + 1 * (y 0).val = (k 0).val; rw [e0, hk0]; omega
  | ⟨1, _⟩ => show win1_1.index t 1 * 128 + 1 * (y 1).val = (k 1).val; rw [e1, hk1]; omega

/-- A weight or bias window's one block is the whole array. -/
theorem blk_uW1 (c : Dev nD) (t : Fin cfg1.N) : (iblk1 V c 2 t : Vec Ideal S128x128 .f32) = (V c main_arg9 : S128x128.Idx → EReal) := by
  obtain ⟨-, -, -, -, e0, e1, -⟩ := idx_facts t
  funext y
  unfold iblk1
  rw [View.read_apply]
  show V c main_arg9 _ = V c main_arg9 _
  refine congrArg (V c main_arg9) ?_
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega
theorem blk_ub1 (c : Dev nD) (t : Fin cfg1.N) : (iblk1 V c 3 t : Vec Ideal S128 .f32) = (V c main_arg10 : S128.Idx → EReal) := by
  obtain ⟨-, -, -, -, -, -, e0, -⟩ := idx_facts t
  funext y
  unfold iblk1
  rw [View.read_apply]
  show V c main_arg10 _ = V c main_arg10 _
  refine congrArg (V c main_arg10) ?_
  funext a
  apply Fin.ext
  match a with
  | ⟨0, _⟩ => show win1_3.index t 0 * 128 + 1 * (y 0).val = (y 0).val; rw [e0]; omega
theorem blk_uW2 (c : Dev nD) (t : Fin cfg1.N) : (iblk1 V c 4 t : Vec Ideal S128x128 .f32) = (V c main_arg11 : S128x128.Idx → EReal) := by
  obtain ⟨-, -, -, -, -, -, -, e0, e1, -⟩ := idx_facts t
  funext y
  unfold iblk1
  rw [View.read_apply]
  show V c main_arg11 _ = V c main_arg11 _
  refine congrArg (V c main_arg11) ?_
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega
theorem blk_ub2 (c : Dev nD) (t : Fin cfg1.N) : (iblk1 V c 5 t : Vec Ideal S128 .f32) = (V c main_arg12 : S128.Idx → EReal) := by
  obtain ⟨-, -, -, -, -, -, -, -, -, e0, -⟩ := idx_facts t
  funext y
  unfold iblk1
  rw [View.read_apply]
  show V c main_arg12 _ = V c main_arg12 _
  refine congrArg (V c main_arg12) ?_
  funext a
  apply Fin.ext
  match a with
  | ⟨0, _⟩ => show win1_5.index t 0 * 128 + 1 * (y 0).val = (y 0).val; rw [e0]; omega

/-- The updated node features of the arrays the region finds. -/
abbrev outArr (c : Dev nD) : S50000x128.Idx → EReal :=
  Cert.Spec.nodeUpd (Nn := 50000) (V c main_v15) (V c main_arg0) (V c main_arg9) (V c main_arg10) (V c main_arg11) (V c main_arg12)

/-- What point `t` writes back is its block of rows of the updated features. -/
theorem flushed_eq (hpay : ∀ (v0 : Vec Ideal S5000x128 .f32) (v3 : Vec Ideal S128x128 .f32) (v6 : Vec Ideal S128 .f32) (v13 : Vec Ideal S128x128 .f32) (v16 : Vec Ideal S128 .f32) (v20 : Vec Ideal S5000x128 .f32), k1_pay1 (F := Ideal) v0 v3 v6 v13 v16 v20 = Cert.Spec.nodeUpd (Nn := 5000) v0 v20 v3 v6 v13 v16)
    (c : Dev nD) (t : Fin cfg1.N) :
    (dat1 V c).flushed 6 t = ((cfg1.win 6).blk t).view.read (Elt Ideal) (outArr V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S128) hz1]
  rw [hpay, blk_uW1 V c t, blk_ub1 V c t, blk_uW2 V c t, blk_ub2 V c t]
  obtain ⟨-, -, -, -, -, -, -, -, -, -, e0, e1⟩ := idx_facts t
  funext j
  obtain ⟨p, q, rfl⟩ : ∃ (p : Fin 5000) (q : Fin 128), j = ix2 p q := ⟨j 0, j 1, eq_ix2 j⟩
  rw [View.read_apply]
  have ht : t.val < 10 := Nat.lt_of_lt_of_eq t.isLt N_1
  have hp : t.val * 5000 + p.val < 50000 := by have := p.isLt; omega
  have he : ((cfg1.win 6).blk t).view.emb (ix2 p q) = (ix2 (⟨t.val * 5000 + p.val, hp⟩ : Fin 50000) q : S50000x128.Idx) := by
    funext a
    apply Fin.ext
    match a with
    | ⟨0, _⟩ => show win1_6.index t 0 * 5000 + 1 * p.val = t.val * 5000 + p.val; rw [e0]; omega
    | ⟨1, _⟩ => show win1_6.index t 1 * 128 + 1 * q.val = q.val; rw [e1]; omega
  rw [he]
  exact Cert.Spec.nodeUpd_congr _ _ _ _ _ _ _ _ p ⟨t.val * 5000 + p.val, hp⟩ q
    (fun k => blk_agg V c t (ix2 p k) (ix2 ⟨t.val * 5000 + p.val, hp⟩ k) rfl rfl)
    (blk_x V c t (ix2 p q) (ix2 ⟨t.val * 5000 + p.val, hp⟩ q) rfl rfl)

/-- Membership in a block of the output window, coordinate by coordinate. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v16).slice (win1_6.rect t)).set ↔ _
  rw [View.set_slice_whole, Rect.mem_set_unit]
  exact Iff.rfl

/-- Every row lies in the block of the point `row / 5000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_6 _, ?_⟩
  rw [mem_blk]
  obtain ⟨-, -, -, -, -, -, -, -, -, -, e0, e1⟩ := idx_facts ⟨(i 0).val / 5000, by rw [hN]; omega⟩
  intro a
  match a with
  | ⟨0, _⟩ => show win1_6.index _ 0 * 5000 ≤ (i 0).val ∧ (i 0).val < win1_6.index _ 0 * 5000 + 5000; rw [e0]; dsimp only; omega
  | ⟨1, _⟩ => show win1_6.index _ 1 * 128 ≤ (i 1).val ∧ (i 1).val < win1_6.index _ 1 * 128 + 128; rw [e1]; omega

/-- The result array after the region's run. -/
theorem final (hpay : ∀ (v0 : Vec Ideal S5000x128 .f32) (v3 : Vec Ideal S128x128 .f32) (v6 : Vec Ideal S128 .f32) (v13 : Vec Ideal S128x128 .f32) (v16 : Vec Ideal S128 .f32) (v20 : Vec Ideal S5000x128 .f32), k1_pay1 (F := Ideal) v0 v3 v6 v13 v16 v20 = Cert.Spec.nodeUpd (Nn := 5000) v0 v20 v3 v6 v13 v16)
    (c : Dev nD) : (dat1 V c).arrAt 6 cfg1.N = outArr V c :=
  (dat1 V c).arrAt_eq_of_cover 6 (outArr V c) (fun t _ => flushed_eq V hpay c t) cover

end Cert.KernelIdeal.UpdateRegion

end
-- ==== Proof.KernelValue.lean ====
/-
  The kernel program's result as one function of its argument arrays. Before the first region the host wraps a
  negative source id by the number of nodes and gathers the source rows; the first region leaves the message array
  (`edgeMsg`); the host then adds every message into its destination node's row (a scatter-add from zeros); the second
  region leaves `nodeUpd` of that aggregate and the node features. The gather and the scatter-add are carried as
  opaque host functions of the index array: nothing here reads them at an index.
-/
import proofs.«427932_j76012331204796_3_alg».proof.Proof.KernelRun
import proofs.«427932_j76012331204796_3_alg».proof.Proof.EdgeRegion
import proofs.«427932_j76012331204796_3_alg».proof.Proof.UpdateRegion
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen

/-- The source ids (row 0 of the index array) as a column, a negative id wrapped by the number of nodes. -/
def srcCol (ei : (⟨S2x1600000, .i32⟩ : BufTy).Contents (Elt Ideal)) : (⟨S1600000x1, .i32⟩ : BufTy).Contents (Elt Ideal) :=
  broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 50000#32))) (shapeCast _ (extractStridedSlice S1x1600000 ![0, 0] ei slices_S2x1600000_S1x1600000_0_0) shapeCasts_S1x1600000_S1600000))

/-- The destination ids (row 1 of the index array) as a column. -/
def dstCol (ei : (⟨S2x1600000, .i32⟩ : BufTy).Contents (Elt Ideal)) : (⟨S1600000x1, .i32⟩ : BufTy).Contents (Elt Ideal) :=
  broadcastInDim S1600000x1 ![0] bcast_S1600000_S1600000x1_0 (shapeCast _ (extractStridedSlice S1x1600000 ![1, 0] ei slices_S2x1600000_S1x1600000_1_0) shapeCasts_S1x1600000_S1600000)

/-- The node features gathered at the edges' sources. -/
def gathered (x : (⟨S50000x128, .f32⟩ : BufTy).Contents (Elt Ideal)) (ei : (⟨S2x1600000, .i32⟩ : BufTy).Contents (Elt Ideal)) :
    (⟨S1600000x128, .f32⟩ : BufTy).Contents (Elt Ideal) :=
  Host.gather gather_S50000x128_S1600000x1_S1600000x128_1_0_n_n_0_1_1128 x (srcCol ei)

/-- The messages added into their destination nodes' rows, from zeros. -/
def aggregate (ei : (⟨S2x1600000, .i32⟩ : BufTy).Contents (Elt Ideal)) (msg : (⟨S1600000x128, .f32⟩ : BufTy).Contents (Elt Ideal)) :
    (⟨S50000x128, .f32⟩ : BufTy).Contents (Elt Ideal) :=
  Host.scatterAdd (F := Ideal) scatter_S50000x128_S1600000x1_S1600000x128_1_0_0_1 (broadcastInDim S50000x128 ![] bcast_S_S50000x128 (constant (F := Ideal) S_ .f32 0x00000000#32)) (dstCol ei) msg

variable (m : (ℓ : Loc nD τ sig) → Buf (Elt Ideal) ℓ) (ρ : Dev nD → PrngReg)

/-! ## What the first region finds -/

theorem V1_src (c : Dev nD) : V1 m ρ c main_v10 = gathered (m ((c : Thread nD τ).loc main_arg0)) (m ((c : Thread nD τ).loc main_arg1)) := by
  show StableHlo.after hostOps0 (W0 m ρ c) (Proc.devRef .tc main_v10) = _
  unfold gathered srcCol
  after_results
  rfl

theorem V1_arg2 (c : Dev nD) : V1 m ρ c main_arg2 = (m ((c : Thread nD τ).loc main_arg2)) := by
  show StableHlo.after hostOps0 (W0 m ρ c) (Proc.devRef .tc main_arg2) = _
  after_results
theorem V1_arg3 (c : Dev nD) : V1 m ρ c main_arg3 = (m ((c : Thread nD τ).loc main_arg3)) := by
  show StableHlo.after hostOps0 (W0 m ρ c) (Proc.devRef .tc main_arg3) = _
  after_results
theorem V1_arg4 (c : Dev nD) : V1 m ρ c main_arg4 = (m ((c : Thread nD τ).loc main_arg4)) := by
  show StableHlo.after hostOps0 (W0 m ρ c) (Proc.devRef .tc main_arg4) = _
  after_results
theorem V1_arg5 (c : Dev nD) : V1 m ρ c main_arg5 = (m ((c : Thread nD τ).loc main_arg5)) := by
  show StableHlo.after hostOps0 (W0 m ρ c) (Proc.devRef .tc main_arg5) = _
  after_results
theorem V1_arg6 (c : Dev nD) : V1 m ρ c main_arg6 = (m ((c : Thread nD τ).loc main_arg6)) := by
  show StableHlo.after hostOps0 (W0 m ρ c) (Proc.devRef .tc main_arg6) = _
  after_results
theorem V1_arg7 (c : Dev nD) : V1 m ρ c main_arg7 = (m ((c : Thread nD τ).loc main_arg7)) := by
  show StableHlo.after hostOps0 (W0 m ρ c) (Proc.devRef .tc main_arg7) = _
  after_results
theorem V1_arg8 (c : Dev nD) : V1 m ρ c main_arg8 = (m ((c : Thread nD τ).loc main_arg8)) := by
  show StableHlo.after hostOps0 (W0 m ρ c) (Proc.devRef .tc main_arg8) = _
  after_results

/-! ## What the first region leaves, and what the second finds -/

theorem W2_msg (hpay0 : ∀ (v0 : Vec Ideal S12800x50 .f32) (v2 : Vec Ideal S50x128 .f32) (v5 : Vec Ideal S128 .f32) (v12 : Vec Ideal S128x128 .f32) (v15 : Vec Ideal S128 .f32) (v19 : Vec Ideal S12800x128 .f32) (v22 : Vec Ideal S128x128 .f32) (v25 : Vec Ideal S128 .f32), k0_pay1 (F := Ideal) v0 v2 v5 v12 v15 v19 v22 v25 = Cert.Spec.edgeMsg (E := 12800) v19 v0 v2 v5 v12 v15 v22 v25) (c : Dev nD) :
    W2 m ρ c (Proc.devRef .tc main_v11) = Cert.Spec.edgeMsg (E := 1600000) (gathered (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 8).trans ((Cert.KernelIdeal.EdgeRegion.final (V1 m ρ) hpay0 c).trans ?_)
  show Cert.Spec.edgeMsg (E := 1600000) (V1 m ρ c main_v10) (V1 m ρ c main_arg2) (V1 m ρ c main_arg3) (V1 m ρ c main_arg4) (V1 m ρ c main_arg5) (V1 m ρ c main_arg6) (V1 m ρ c main_arg7) (V1 m ρ c main_arg8) = _
  rw [V1_src m ρ c, V1_arg2 m ρ c, V1_arg3 m ρ c, V1_arg4 m ρ c, V1_arg5 m ρ c, V1_arg6 m ρ c, V1_arg7 m ρ c, V1_arg8 m ρ c]

theorem W2_dst (c : Dev nD) : W2 m ρ c (Proc.devRef .tc main_v3) = shapeCast _ (extractStridedSlice S1x1600000 ![1, 0] (m ((c : Thread nD τ).loc main_arg1)) slices_S2x1600000_S1x1600000_1_0) shapeCasts_S1x1600000_S1600000 := by
  rw [W2_of_ne m ρ c main_v3 (by decide)]
  show StableHlo.after hostOps0 (W0 m ρ c) (Proc.devRef .tc main_v3) = _
  after_results
  rfl

theorem V3_agg (hpay0 : ∀ (v0 : Vec Ideal S12800x50 .f32) (v2 : Vec Ideal S50x128 .f32) (v5 : Vec Ideal S128 .f32) (v12 : Vec Ideal S128x128 .f32) (v15 : Vec Ideal S128 .f32) (v19 : Vec Ideal S12800x128 .f32) (v22 : Vec Ideal S128x128 .f32) (v25 : Vec Ideal S128 .f32), k0_pay1 (F := Ideal) v0 v2 v5 v12 v15 v19 v22 v25 = Cert.Spec.edgeMsg (E := 12800) v19 v0 v2 v5 v12 v15 v22 v25) (c : Dev nD) :
    V3 m ρ c main_v15 = aggregate (m ((c : Thread nD τ).loc main_arg1)) (Cert.Spec.edgeMsg (E := 1600000) (gathered (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps1 (W2 m ρ c) (Proc.devRef .tc main_v15) = _
  unfold aggregate dstCol
  after_results
  rw [W2_dst m ρ c, W2_msg m ρ hpay0 c]
  rfl

theorem V3_arg0 (c : Dev nD) : V3 m ρ c main_arg0 = (m ((c : Thread nD τ).loc main_arg0)) :=
  ((W4_arr m ρ c 1).trans (((dat1 (V3 m ρ) c).arrAt_in 1 rfl _).trans (A_eq1 (V3 m ρ) c 1))).symm.trans (W4_main_arg0 m ρ c)
theorem V3_arg9 (c : Dev nD) : V3 m ρ c main_arg9 = (m ((c : Thread nD τ).loc main_arg9)) :=
  ((W4_arr m ρ c 2).trans (((dat1 (V3 m ρ) c).arrAt_in 2 rfl _).trans (A_eq1 (V3 m ρ) c 2))).symm.trans (W4_main_arg9 m ρ c)
theorem V3_arg10 (c : Dev nD) : V3 m ρ c main_arg10 = (m ((c : Thread nD τ).loc main_arg10)) :=
  ((W4_arr m ρ c 3).trans (((dat1 (V3 m ρ) c).arrAt_in 3 rfl _).trans (A_eq1 (V3 m ρ) c 3))).symm.trans (W4_main_arg10 m ρ c)
theorem V3_arg11 (c : Dev nD) : V3 m ρ c main_arg11 = (m ((c : Thread nD τ).loc main_arg11)) :=
  ((W4_arr m ρ c 4).trans (((dat1 (V3 m ρ) c).arrAt_in 4 rfl _).trans (A_eq1 (V3 m ρ) c 4))).symm.trans (W4_main_arg11 m ρ c)
theorem V3_arg12 (c : Dev nD) : V3 m ρ c main_arg12 = (m ((c : Thread nD τ).loc main_arg12)) :=
  ((W4_arr m ρ c 5).trans (((dat1 (V3 m ρ) c).arrAt_in 5 rfl _).trans (A_eq1 (V3 m ρ) c 5))).symm.trans (W4_main_arg12 m ρ c)

/-! ## The result -/

/-- The result of the kernel program as a function of the argument arrays. -/
def result (c : Dev nD) : S50000x128.Idx → EReal :=
  Cert.Spec.nodeUpd (Nn := 50000)
    (aggregate (m ((c : Thread nD τ).loc main_arg1)) (Cert.Spec.edgeMsg (E := 1600000) (gathered (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))
    (m ((c : Thread nD τ).loc main_arg0)) (m ((c : Thread nD τ).loc main_arg9)) (m ((c : Thread nD τ).loc main_arg10)) (m ((c : Thread nD τ).loc main_arg11)) (m ((c : Thread nD τ).loc main_arg12))

theorem W4_result (hpay0 : ∀ (v0 : Vec Ideal S12800x50 .f32) (v2 : Vec Ideal S50x128 .f32) (v5 : Vec Ideal S128 .f32) (v12 : Vec Ideal S128x128 .f32) (v15 : Vec Ideal S128 .f32) (v19 : Vec Ideal S12800x128 .f32) (v22 : Vec Ideal S128x128 .f32) (v25 : Vec Ideal S128 .f32), k0_pay1 (F := Ideal) v0 v2 v5 v12 v15 v19 v22 v25 = Cert.Spec.edgeMsg (E := 12800) v19 v0 v2 v5 v12 v15 v22 v25) (hpay1 : ∀ (v0 : Vec Ideal S5000x128 .f32) (v3 : Vec Ideal S128x128 .f32) (v6 : Vec Ideal S128 .f32) (v13 : Vec Ideal S128x128 .f32) (v16 : Vec Ideal S128 .f32) (v20 : Vec Ideal S5000x128 .f32), k1_pay1 (F := Ideal) v0 v3 v6 v13 v16 v20 = Cert.Spec.nodeUpd (Nn := 5000) v0 v20 v3 v6 v13 v16) (c : Dev nD) : W4 m ρ c (Proc.devRef .tc main_v16) = result m c := by
  refine (W4_arr m ρ c 6).trans ((Cert.KernelIdeal.UpdateRegion.final (V3 m ρ) hpay1 c).trans ?_)
  show Cert.Spec.nodeUpd (Nn := 50000) (V3 m ρ c main_v15) (V3 m ρ c main_arg0) (V3 m ρ c main_arg9) (V3 m ρ c main_arg10) (V3 m ρ c main_arg11) (V3 m ρ c main_arg12) = _
  rw [V3_agg m ρ hpay0 c, V3_arg0 m ρ c, V3_arg9 m ρ c, V3_arg10 m ρ c, V3_arg11 m ρ c, V3_arg12 m ρ c]
  rfl

/-- The run of the kernel program: the result buffer at `result`, the arguments as launched. -/
theorem run (hpay0 : ∀ (v0 : Vec Ideal S12800x50 .f32) (v2 : Vec Ideal S50x128 .f32) (v5 : Vec Ideal S128 .f32) (v12 : Vec Ideal S128x128 .f32) (v15 : Vec Ideal S128 .f32) (v19 : Vec Ideal S12800x128 .f32) (v22 : Vec Ideal S128x128 .f32) (v25 : Vec Ideal S128 .f32), k0_pay1 (F := Ideal) v0 v2 v5 v12 v15 v19 v22 v25 = Cert.Spec.edgeMsg (E := 12800) v19 v0 v2 v5 v12 v15 v22 v25) (hpay1 : ∀ (v0 : Vec Ideal S5000x128 .f32) (v3 : Vec Ideal S128x128 .f32) (v6 : Vec Ideal S128 .f32) (v13 : Vec Ideal S128x128 .f32) (v16 : Vec Ideal S128 .f32) (v20 : Vec Ideal S5000x128 .f32), k1_pay1 (F := Ideal) v0 v3 v6 v13 v16 v20 = Cert.Spec.nodeUpd (Nn := 5000) v0 v20 v3 v6 v13 v16) : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (W4_result m ρ hpay0 hpay1 c), (h c).2⟩) (Cert.KernelIdeal.Run.run_main m ρ)

end Cert.KernelIdeal.Whole

end
-- ==== Proof.RefValue.lean ====
/-
  Two stages of the reference, read index by index, are the specification's functions on the extended reals.

  The message stage is a product of two factors. The first is the dense image of the gathered source rows:
  at edge e and channel j, the sum over k of xs(e,k)·dW(k,j), plus db(j). The second is the two-layer perceptron of the
  edge's radial features: the sum over the hidden unit k of silu(h(e,k))·fW2(k,j), plus fb2(j), where
  h(e,k) is the sum over k1 of attr(e,k1)·fW1(k1,k), plus fb1(k). The reference writes the gate as
  h·(1/(1 + e^(-h))) with the constant one given as the word 0x3F800000, which is the real number one; the quotient
  1/(1 + e^(-h)) is the logistic function by definition, so the reference's gate is silu.

  The output stage is the node's own row plus the same perceptron of its aggregated messages.

  The gathered rows and the aggregated messages enter as opaque operands: nothing here depends on how they are made.
  What remains is bookkeeping: each index function that the reference composes (a contraction's left and right reads,
  a bias broadcast along the rows) is the coordinate index ix2 / ix1 of the obvious coordinates, by cases on the axis.
-/
import proofs.«427932_j76012331204796_3_alg».proof.Proof.Gen.ReferenceIdeal.Read
import proofs.«427932_j76012331204796_3_alg».proof.Proof.Spec
import Idealize.ShloMosaic.Lib.IdealHost
import Idealize.ShloMosaic.Lib.ValueIdx
import Idealize.ShloMosaic.PureOps.Ideal
import Mathlib.Algebra.BigOperators.Group.Finset.Basic

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

/-! ## The message stage -/

/-! The index functions that the reference's operations compose are the coordinate indices ix2 / ix1. -/

/-- A contraction of an edge-indexed left operand with a square weight reads row (i 0), column k on the left … -/
theorem lidxE (i : S1600000x128.Idx) (k : Fin 128) :
    lidx_main_v20 i k = ix2 (n0 := 1600000) (n1 := 128) (i 0) k :=
  funext fun a => Fin.ext (by match a with | ⟨0, _⟩ => rfl | ⟨1, _⟩ => rfl)
/-- … and row k, column (i 1) on the right. -/
theorem ridxE (i : S1600000x128.Idx) (k : Fin 128) :
    ridx_main_v20 i k = ix2 (n0 := 128) (n1 := 128) k (i 1) :=
  funext fun a => Fin.ext (by match a with | ⟨0, _⟩ => rfl | ⟨1, _⟩ => rfl)
/-- The same on the right of the perceptron's second layer. -/
theorem ridxE9 (i : S1600000x128.Idx) (k : Fin 128) :
    ridx_main_v9 i k = ix2 (n0 := 128) (n1 := 128) k (i 1) :=
  funext fun a => Fin.ext (by match a with | ⟨0, _⟩ => rfl | ⟨1, _⟩ => rfl)
/-- The perceptron's first layer, read for the hidden unit k of row (i 0): the left operand at ((i 0), k1) … -/
theorem lidxE4 (i : S1600000x128.Idx) (k : Fin 128) (k1 : Fin 50) :
    lidx_main_v4 (lidx_main_v9 i k) k1 = ix2 (n0 := 1600000) (n1 := 50) (i 0) k1 :=
  funext fun a => Fin.ext (by match a with | ⟨0, _⟩ => rfl | ⟨1, _⟩ => rfl)
/-- … and the right operand at (k1, k). -/
theorem ridxE4 (i : S1600000x128.Idx) (k : Fin 128) (k1 : Fin 50) :
    ridx_main_v4 (lidx_main_v9 i k) k1 = ix2 (n0 := 50) (n1 := 128) k1 k :=
  funext fun a => Fin.ext (by match a with | ⟨0, _⟩ => rfl | ⟨1, _⟩ => rfl)
/-- A bias broadcast along the rows is read at the column: the first layer's, at the hidden unit k. -/
theorem bidxE4 (i : S1600000x128.Idx) (k : Fin 128) :
    idx_main_v5 (idx_main_v6 (lidx_main_v9 i k)) = ix1 (n := 128) k :=
  funext fun a => Fin.ext (by match a with | ⟨0, _⟩ => rfl)
/-- The second layer's bias, at the column (i 1). -/
theorem bidxE10 (i : S1600000x128.Idx) : idx_main_v10 (idx_main_v11 i) = ix1 (n := 128) (i 1) :=
  funext fun a => Fin.ext (by match a with | ⟨0, _⟩ => rfl)
/-- The bias of the dense image of the gathered rows, at the column (i 1). -/
theorem bidxE21 (i : S1600000x128.Idx) : idx_main_v21 (idx_main_v22 i) = ix1 (n := 128) (i 1) :=
  funext fun a => Fin.ext (by match a with | ⟨0, _⟩ => rfl)

/-- The message stage is the specification's message: the dense image of the gathered rows times the perceptron of the
    edge features. The gathered rows stay an opaque operand. -/
theorem msg_eq (x0 : (⟨S50000x128, .f32⟩ : BufTy).Contents (Elt Ideal)) (x1 : (⟨S2x1600000, .i32⟩ : BufTy).Contents (Elt Ideal)) (x2 : (⟨S1600000x50, .f32⟩ : BufTy).Contents (Elt Ideal)) (x3 : (⟨S50x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    Cert.ReferenceIdeal.Read.val_main_v24 (F := Ideal) x0 x1 x2 x3 x4 x5 x6 x7 x8 = Cert.Spec.edgeMsg (E := 1600000) (Cert.ReferenceIdeal.Read.val_main_v19 (F := Ideal) x0 x1) x2 x3 x4 x5 x6 x7 x8 := by
  funext i
  rw [val_main_v24_apply, val_main_v23_apply, val_main_v20_apply, val_main_v22_apply, val_main_v21_apply,
    val_main_v12_apply, val_main_v9_apply, val_main_v11_apply, val_main_v10_apply]
  generalize val_main_v19 (F := Ideal) x0 x1 = xs
  simp only [val_main_v8_apply, val_main_call0_v5_apply, val_main_call0_v4_apply, val_main_call0_cst_0_apply,
    val_main_call0_v3_apply, val_main_call0_v2_apply, val_main_call0_cst_apply, val_main_call0_v1_apply,
    val_main_call0_v0_apply, val_main_v7_apply, val_main_v4_apply, val_main_v6_apply, val_main_v5_apply,
    lidxE, ridxE, ridxE9, lidxE4, ridxE4, bidxE4, bidxE10, bidxE21,
    Ideal.mulf_def, Ideal.addf_def, Ideal.hostDivf_def, Ideal.ofBits_def, Ideal.ofBits_one_f32,
    Ideal.hostUnary_exp_def, Ideal.hostNegf_def, Ideal.negf_def]
  rfl

/-! ## The output stage -/

/-- The node perceptron's first layer at a free index j reads the aggregate at ((j 0), k) … -/
theorem lidxJ28 (j : S50000x128.Idx) (k : Fin 128) :
    lidx_main_v28 j k = ix2 (n0 := 50000) (n1 := 128) (j 0) k :=
  funext fun a => Fin.ext (by match a with | ⟨0, _⟩ => rfl | ⟨1, _⟩ => rfl)
/-- … its weight at (k, (j 1)) … -/
theorem ridxJ28 (j : S50000x128.Idx) (k : Fin 128) :
    ridx_main_v28 j k = ix2 (n0 := 128) (n1 := 128) k (j 1) :=
  funext fun a => Fin.ext (by match a with | ⟨0, _⟩ => rfl | ⟨1, _⟩ => rfl)
/-- … and its bias at (j 1). -/
theorem bidxJ29 (j : S50000x128.Idx) : idx_main_v29 (idx_main_v30 j) = ix1 (n := 128) (j 1) :=
  funext fun a => Fin.ext (by match a with | ⟨0, _⟩ => rfl)
/-- The node update's second layer reads its weight at (k, (i 1)) … -/
theorem ridxN (i : S50000x128.Idx) (k : Fin 128) :
    ridx_main_v33 i k = ix2 (n0 := 128) (n1 := 128) k (i 1) :=
  funext fun a => Fin.ext (by match a with | ⟨0, _⟩ => rfl | ⟨1, _⟩ => rfl)
/-- … and its bias at (i 1). -/
theorem bidxN34 (i : S50000x128.Idx) : idx_main_v34 (idx_main_v35 i) = ix1 (n := 128) (i 1) :=
  funext fun a => Fin.ext (by match a with | ⟨0, _⟩ => rfl)

/-- The node perceptron's hidden layer at a free index j: the gate h·(1/(1 + e^(-h))) of the first dense layer of the
    aggregated messages, which is silu of that layer. It is stated at a free index so that it can be used at each
    summand of the second layer's sum over the hidden units. The aggregated messages stay an opaque operand. -/
theorem hidN (x0 : (⟨S50000x128, .f32⟩ : BufTy).Contents (Elt Ideal)) (x1 : (⟨S2x1600000, .i32⟩ : BufTy).Contents (Elt Ideal)) (x2 : (⟨S1600000x50, .f32⟩ : BufTy).Contents (Elt Ideal)) (x3 : (⟨S50x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (j : S50000x128.Idx) :
    val_main_v32 (F := Ideal) x0 x1 x2 x3 x4 x5 x6 x7 x8 x9 x10 j
      = Cert.Spec.silu (Cert.Spec.dense (M := 50000) (val_main_v27 (F := Ideal) x0 x1 x2 x3 x4 x5 x6 x7 x8) x9 x10 (j 0) (j 1)) := by
  rw [val_main_v32_apply, val_main_call1_v5_apply, val_main_call1_v4_apply, val_main_call1_cst_0_apply,
    val_main_call1_v3_apply, val_main_call1_v2_apply, val_main_call1_cst_apply, val_main_call1_v1_apply,
    val_main_call1_v0_apply, val_main_v31_apply, val_main_v28_apply, val_main_v30_apply, val_main_v29_apply]
  generalize val_main_v27 (F := Ideal) x0 x1 x2 x3 x4 x5 x6 x7 x8 = agg
  unfold Cert.Spec.silu Cert.Spec.dense Ideal.logistic
  simp only [lidxJ28, ridxJ28, bidxJ29,
    Ideal.mulf_def, Ideal.addf_def, Ideal.hostDivf_def, Ideal.ofBits_def, Ideal.ofBits_one_f32,
    Ideal.hostUnary_exp_def, Ideal.hostNegf_def, Ideal.negf_def]

/-- The output stage is the specification's node update of the aggregated messages: the node's own row plus the
    perceptron of its aggregate. Row (i 0) of the hidden layer is read at ((i 0), k), whose coordinates are (i 0) and k. -/
theorem out_eq (x0 : (⟨S50000x128, .f32⟩ : BufTy).Contents (Elt Ideal)) (x1 : (⟨S2x1600000, .i32⟩ : BufTy).Contents (Elt Ideal)) (x2 : (⟨S1600000x50, .f32⟩ : BufTy).Contents (Elt Ideal)) (x3 : (⟨S50x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    Cert.ReferenceIdeal.Read.val_main_v37 (F := Ideal) x0 x1 x2 x3 x4 x5 x6 x7 x8 x9 x10 x11 x12 = Cert.Spec.nodeUpd (Nn := 50000) (Cert.ReferenceIdeal.Read.val_main_v27 (F := Ideal) x0 x1 x2 x3 x4 x5 x6 x7 x8) x0 x9 x10 x11 x12 := by
  funext i
  rw [val_main_v37_apply, val_main_v36_apply, val_main_v33_apply, val_main_v35_apply, val_main_v34_apply, bidxN34]
  rw [Finset.sum_congr rfl fun k _ =>
    show val_main_v32 (F := Ideal) x0 x1 x2 x3 x4 x5 x6 x7 x8 x9 x10 (lidx_main_v33 i k) * x11 (ridx_main_v33 i k)
        = Cert.Spec.silu (Cert.Spec.dense (M := 50000) (val_main_v27 (F := Ideal) x0 x1 x2 x3 x4 x5 x6 x7 x8) x9 x10 (i 0) k)
          * x11 (ix2 (n0 := 128) (n1 := 128) k (i 1)) from by rw [hidN, ridxN]; rfl]
  generalize val_main_v27 (F := Ideal) x0 x1 x2 x3 x4 x5 x6 x7 x8 = agg
  rfl

end Cert.ReferenceIdeal.RefValue

end
-- ==== Proof.lean ====
/-
  The certificate of one message-passing layer: a Pallas program of two kernels (the per-edge messages in 125 blocks of
  12,800 edges, the per-node update in 10 blocks of 5,000 nodes) around a host gather and a host scatter-add, against
  the plain reference `x + mlp_u(segment_sum((x[src]·dW + db) · mlp_f(edge_attr), dst))`.

  Over the extended reals every rounding to bf16 is the identity, a block product into a zero accumulator and the
  host's `dot_general` are the same finite sum, and the kernels' logistic is the reference's `1/(1 + e^(-h))`; so both
  programs compute, entry by entry, `nodeUpd (aggregate dst (edgeMsg (gather x src) …)) x …` (Proof/Spec.lean), the
  gather and the scatter-add being the same host functions of the same index array on both sides. No law that
  needs finiteness is used: the two sides are one expression, so the precondition is never opened.

  The three frames: the two kernel programs' are the generated frame certificates; the reference's is its generated
  run with the result dropped. The idealization ledger is empty.
-/
import proofs.«427932_j76012331204796_3_alg».proof.Defs
import proofs.«427932_j76012331204796_3_alg».proof.Proof.Gen.Kernel
import proofs.«427932_j76012331204796_3_alg».proof.Proof.Gen.Kernel.Frame
import proofs.«427932_j76012331204796_3_alg».proof.Proof.Gen.KernelIdeal
import proofs.«427932_j76012331204796_3_alg».proof.Proof.Gen.KernelIdeal.Frame
import proofs.«427932_j76012331204796_3_alg».proof.Proof.Gen.ReferenceIdeal
import proofs.«427932_j76012331204796_3_alg».proof.Proof.Gen.ReferenceIdeal.Run
import proofs.«427932_j76012331204796_3_alg».proof.Proof.Gen.ReferenceIdeal.Read
import proofs.«427932_j76012331204796_3_alg».proof.Proof.Gen.Pre_finite_inputs
import proofs.«427932_j76012331204796_3_alg».proof.Proof.KernelPayload
import proofs.«427932_j76012331204796_3_alg».proof.Proof.KernelValue
import proofs.«427932_j76012331204796_3_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's aggregate is the kernel program's: the same scatter-add, from zeros, along the same destination
    column, of messages that are `edgeMsg` of the same gathered rows. -/
theorem aggregate_eq (x0 : (⟨Cert.ReferenceIdeal.S50000x128, .f32⟩ : BufTy).Contents (Elt Ideal)) (x1 : (⟨Cert.ReferenceIdeal.S2x1600000, .i32⟩ : BufTy).Contents (Elt Ideal))
    (x2 : (⟨Cert.ReferenceIdeal.S1600000x50, .f32⟩ : BufTy).Contents (Elt Ideal)) (x3 : (⟨Cert.ReferenceIdeal.S50x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (x7 : (⟨Cert.ReferenceIdeal.S128x128, .f32⟩ : BufTy).Contents (Elt Ideal))
    (x8 : (⟨Cert.ReferenceIdeal.S128, .f32⟩ : BufTy).Contents (Elt Ideal)) :
    Cert.ReferenceIdeal.Read.val_main_v27 (F := Ideal) x0 x1 x2 x3 x4 x5 x6 x7 x8
      = Cert.KernelIdeal.Whole.aggregate x1 (Cert.Spec.edgeMsg (E := 1600000) (Cert.KernelIdeal.Whole.gathered x0 x1) x2 x3 x4 x5 x6 x7 x8) := by
  unfold Cert.ReferenceIdeal.Read.val_main_v27
  rw [Cert.ReferenceIdeal.RefValue.msg_eq]
  rfl

/-- At the extended reals the two programs, run from memories agreeing on the arguments, both end with the result
    `nodeUpd (aggregate …) x …` of the arguments. -/
theorem algebraic : Cert.algebraic_KernelIdeal_ReferenceIdeal := by
  intro m ρ m' ρ' _ hagree
  refine ⟨fun c => Cert.KernelIdeal.Whole.result m c,
    Cert.KernelIdeal.Whole.run m ρ Cert.KernelIdeal.Payload.edge_eq Cert.KernelIdeal.Payload.update_eq, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v37_eq, Cert.ReferenceIdeal.RefValue.out_eq, aggregate_eq,
    h0, h1, h2, h3, h4, h5, h6, h7, h8, h9, h10, h11, h12]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
